-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S512x64 : Shape := ⟨2, ![512, 64]⟩
abbrev S512 : Shape := ⟨1, ![512]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x4096x64 .f32) (main_arg1 : FVec F S512x64 .f32) (main_arg2 : FVec F S512 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x4096x64 : Shape := ⟨3, ![8, 4096, 64]⟩
abbrev S512x64 : Shape := ⟨2, ![512, 64]⟩
abbrev S512 : Shape := ⟨1, ![512]⟩
abbrev S32768x64 : Shape := ⟨2, ![32768, 64]⟩
abbrev S_ : Shape := ⟨0, ![]⟩
abbrev S1x512 : Shape := ⟨2, ![1, 512]⟩
abbrev S32768x512 : Shape := ⟨2, ![32768, 512]⟩
abbrev S1024x64 : Shape := ⟨2, ![1024, 64]⟩
abbrev S1024x512 : Shape := ⟨2, ![1024, 512]⟩
abbrev S1024 : Shape := ⟨1, ![1024]⟩
abbrev S1024x1 : Shape := ⟨2, ![1024, 1]⟩
abbrev S8x4096x512 : Shape := ⟨3, ![8, 4096, 512]⟩

abbrev nBuf : Space → Nat
  | .hbm => 11
  | .vmem => 7
  | .smem => 0
  | _ => 0

abbrev bufTy : (tb : Table) → Fin (tcTables nBuf tb) → BufTy
  | .hbm, ⟨0, _⟩ => ⟨S8x4096x64, .f32⟩
  | .hbm, ⟨1, _⟩ => ⟨S512x64, .f32⟩
  | .hbm, ⟨2, _⟩ => ⟨S512, .f32⟩
  | .hbm, ⟨3, _⟩ => ⟨S32768x64, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S32768x512, .f32⟩
  | .hbm, ⟨10, _⟩ => ⟨S8x4096x512, .f32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x64_S32768x64 : S8x4096x64.ShapeCasts S32768x64
  reducesTo_S512x64_S512_d1 : S512x64.ReducesTo [1] S512
  h_S_ : 0 < S_.numel
  shapeCasts_S512_S1x512 : S512.ShapeCasts S1x512
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x64_S1024 : S1024x64.Reduces [1] S1024
  shapeCasts_S1024_S1024x1 : S1024.ShapeCasts S1024x1
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S32768x512_S8x4096x512 : S32768x512.ShapeCasts S8x4096x512
  dot_S1024x64_S512x64_S1024x512_1_1_0_0_n_n_wf : DotDims.WF S1024x64 S512x64 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S32768x512.size a
  hwx0_4 : ∀ i : grid0.Coords, EltTy.bits .f32 = 32 ∨ (Rect.block (s := S32768x512) S1024x512.size (cc0_transform_4 i) (hinb0_4 i)).WholeWords (EltTy.packing .f32)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S512x64 : Shape := ⟨2, ![512, 64]⟩
abbrev S512 : Shape := ⟨1, ![512]⟩
abbrev S_ : Shape := ⟨0, ![]⟩
abbrev S8x4096 : Shape := ⟨2, ![8, 4096]⟩
abbrev S8x4096x512 : Shape := ⟨3, ![8, 4096, 512]⟩
abbrev S8x4096x1 : Shape := ⟨3, ![8, 4096, 1]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S512x64, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8x4096x64, .f32⟩
  | .hbm, ⟨8, _⟩ => ⟨S_, .f32⟩
  | .hbm, ⟨9, _⟩ => ⟨S8x4096, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S8x4096x512, .f32⟩
  | .hbm, ⟨14, _⟩ => ⟨S8x4096x1, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x512, .f32⟩
  | .hbm, ⟨20, _⟩ => ⟨S1x1x512, .f32⟩
  | .hbm, ⟨21, _⟩ => ⟨S8x4096x512, .f32⟩
  | .hbm, ⟨22, _⟩ => ⟨S8x4096x512, .f32⟩
  | .hbm, ⟨23, _⟩ => ⟨S_, .f32⟩
  | .hbm, ⟨24, _⟩ => ⟨S8x4096x512, .f32⟩
  | .hbm, ⟨25, _⟩ => ⟨S8x4096x512, .f32⟩
  | .hbm, ⟨26, _⟩ => ⟨S1x1x512, .f32⟩
  | .hbm, ⟨27, _⟩ => ⟨S8x4096x512, .f32⟩
  | .hbm, ⟨28, _⟩ => ⟨S8x4096x512, .f32⟩
  | .hbm, ⟨29, _⟩ => ⟨S8x4096x512, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S512 : S_.BroadcastsInDim S512 (![] : Fin 0 → Fin S512.rank)
  reducesTo_S8x4096x64_S8x4096_d2 : S8x4096x64.ReducesTo [2] S8x4096
  h_S_ : 0 < S_.numel
  reducesTo_S512x64_S512_d1 : S512x64.ReducesTo [1] S512
  bcast_S8x4096_S8x4096x1_0_1 : S8x4096.BroadcastsInDim S8x4096x1 (![0, 1] : Fin 2 → Fin S8x4096x1.rank)
  bcast_S_S8x4096x512 : S_.BroadcastsInDim S8x4096x512 (![] : Fin 0 → Fin S8x4096x512.rank)
  bcast_S8x4096x1_S8x4096x512_0_1_2 : S8x4096x1.BroadcastsInDim S8x4096x512 (![0, 1, 2] : Fin 3 → Fin S8x4096x512.rank)
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  dot_S8x4096x64_S512x64_S8x4096x512_2_1_01_0_n_n_wf : DotDims.WF S8x4096x64 S512x64 S8x4096x512 [2] [1] [0, 1] [0] [] []

variable [Facts₀]

def dot_S8x4096x64_S512x64_S8x4096x512_2_1_01_0_n_n : DotDims S8x4096x64 S512x64 S8x4096x512 where
  lhsContracting := [2]
  rhsContracting := [1]
  lhsNonContracting := [0, 1]
  rhsNonContracting := [0]
  lhsBatch := []
  rhsBatch := []
  wf := dot_S8x4096x64_S512x64_S8x4096x512_2_1_01_0_n_n_wf

class Facts : Prop extends Facts₀ where

variable [Facts]
-- ==== Proof.Spec.lean ====
/-
  A Gaussian radial-basis layer, over the extended reals.

  For points x[b, s, :] and centres mu[o, :] in a 64-dimensional space, with log-widths ls[o], the layer's
  response at (b, s, o) is

      exp( (-1/2 · ((|x_bs|² − 2·⟨x_bs, mu_o⟩) + |mu_o|²)) · exp(−2 · ls_o) ),

  the squared distance |x_bs − mu_o|² written by its quadratic expansion and scaled by the inverse squared width
  exp(−2·ls_o) = 1/σ_o². The three sums run over the 64 coordinates; sums and products are the extended reals'
  (a commutative monoid under +, so a sum over coordinates has no order), and the three scalar factors −1/2, 2, −2
  are kept as the binary32 words both programs spell them with, so that they are never evaluated.

  The same response is also laid out over FLAT rows r = b · 4096 + s, the arrangement a tiled computation works in.
-/
import Idealize.ShloMosaic.PureOps.Ideal
import Idealize.ShloMosaic.Lib.ValueIdx

noncomputable section

namespace Cert.Rbf

open Idealize.ShloMosaic Idealize.ShloMosaic.ValueIdx

/-- The points, [8, 4096, 64]; the centres, [512, 64]; the log-widths, [512]; the responses, [8, 4096, 512]. -/
abbrev Pts : Shape := ⟨3, ![8, 4096, 64]⟩
abbrev Ctr : Shape := ⟨2, ![512, 64]⟩
abbrev Wid : Shape := ⟨1, ![512]⟩
abbrev Out : Shape := ⟨3, ![8, 4096, 512]⟩
/-- The responses over flat rows, [32768, 512]. -/
abbrev OutFlat : Shape := ⟨2, ![32768, 512]⟩

/-- |x_bs|²: the sum of the squares of point (b, s)'s coordinates. -/
def normSq (x : Pts.Idx → EReal) (b : Fin 8) (s : Fin 4096) : EReal :=
  ∑ k : Fin 64, x (ix3 b s k) * x (ix3 b s k)

/-- |mu_o|²: the sum of the squares of centre o's coordinates. -/
def centreSq (mu : Ctr.Idx → EReal) (o : Fin 512) : EReal :=
  ∑ k : Fin 64, mu (ix2 o k) * mu (ix2 o k)

/-- ⟨x_bs, mu_o⟩: the inner product of point (b, s) with centre o. -/
def inner (x : Pts.Idx → EReal) (mu : Ctr.Idx → EReal) (b : Fin 8) (s : Fin 4096) (o : Fin 512) : EReal :=
  ∑ k : Fin 64, x (ix3 b s k) * mu (ix2 o k)

/-- The response of centre o to point (b, s). -/
def response (x : Pts.Idx → EReal) (mu : Ctr.Idx → EReal) (ls : Wid.Idx → EReal) (b : Fin 8) (s : Fin 4096) (o : Fin 512) : EReal :=
  Ideal.exp (Ideal.ofBits .f32 0xBF000000#32
      * (normSq x b s - Ideal.ofBits .f32 0x40000000#32 * inner x mu b s o + centreSq mu o)
    * Ideal.exp (Ideal.ofBits .f32 0xC0000000#32 * ls (ix1 o)))

/-- The layer: every response, at (b, s, o). -/
def layer (x : Pts.Idx → EReal) (mu : Ctr.Idx → EReal) (ls : Wid.Idx → EReal) : Out.Idx → EReal :=
  fun i => response x mu ls (i 0) (i 1) (i 2)

/-- The batch a flat row belongs to, r / 4096, -/
def rowBatch (r : Fin 32768) : Fin 8 := ⟨r.val / 4096, by have := r.isLt; omega⟩
/-- and its position within the batch, r % 4096. -/
def rowPos (r : Fin 32768) : Fin 4096 := ⟨r.val % 4096, by have := r.isLt; omega⟩

/-- The layer over flat rows: at (r, o) the response of centre o to the point of row r. -/
def layerFlat (x : Pts.Idx → EReal) (mu : Ctr.Idx → EReal) (ls : Wid.Idx → EReal) : OutFlat.Idx → EReal :=
  fun j => response x mu ls (rowBatch (j 0)) (rowPos (j 0)) (j 1)

/-- Row b · 4096 + s is position s of batch b. -/
theorem rowBatch_mk (b : Fin 8) (s : Fin 4096) (h : b.val * 4096 + s.val < 32768) : rowBatch ⟨b.val * 4096 + s.val, h⟩ = b :=
  Fin.ext (by show (b.val * 4096 + s.val) / 4096 = b.val; have := s.isLt; omega)
theorem rowPos_mk (b : Fin 8) (s : Fin 4096) (h : b.val * 4096 + s.val < 32768) : rowPos ⟨b.val * 4096 + s.val, h⟩ = s :=
  Fin.ext (by show (b.val * 4096 + s.val) % 4096 = s.val; have := s.isLt; omega)

end Cert.Rbf

end
-- ==== Proof.RefValue.lean ====
/-
  The reference's result is the layer.

  The reference computes, over whole arrays, exp(−2·ls), the row sums of x·x and of mu·mu, the contraction of x with mu
  over the coordinate axis, and then combines them pointwise after broadcasting each to [8, 4096, 512]. Read at an
  index (b, s, o), every broadcast only re-addresses its operand — the point's norm at (b, s), the centre's at o, the
  width at o — each host sum is its initial value 0 plus the sum over the 64 coordinates, and the contraction is
  the sum of the products x[b, s, k] · mu[o, k]. What is left is the response of centre o to point (b, s), term by term.
-/
import proofs.«112076_j61186104099013_1_alg».proof.Proof.Gen.ReferenceIdeal.Read
import proofs.«112076_j61186104099013_1_alg».proof.Proof.Spec

noncomputable section

namespace Cert.Rbf.Reference

open Cert.ReferenceIdeal Cert.ReferenceIdeal.Gen Cert.ReferenceIdeal.Read
open Idealize.ShloMosaic Idealize.ShloMosaic.ValueIdx

/-- The point's norm, broadcast twice and summed over k, is read at (b, s, k). -/
theorem norm_index (b : Fin 8) (s : Fin 4096) (o : Fin 512) (k : Fin 64) :
    idx_main_v4 (idx_main_v8 (idx_main_v11 (ix3 b s o))) k = ix3 b s k :=
  funext fun a => Fin.ext (by match a with | ⟨0, _⟩ => rfl | ⟨1, _⟩ => rfl | ⟨2, _⟩ => rfl)

/-- The contraction's left operand is read at (b, s, k), -/
theorem inner_left_index (b : Fin 8) (s : Fin 4096) (o : Fin 512) (k : Fin 64) :
    lidx_main_v7 (ix3 b s o) k = ix3 b s k :=
  funext fun a => Fin.ext (by match a with | ⟨0, _⟩ => rfl | ⟨1, _⟩ => rfl | ⟨2, _⟩ => rfl)

/-- and its right operand at (o, k). -/
theorem inner_right_index (b : Fin 8) (s : Fin 4096) (o : Fin 512) (k : Fin 64) :
    ridx_main_v7 (ix3 b s o) k = ix2 o k :=
  funext fun a => Fin.ext (by match a with | ⟨0, _⟩ => rfl | ⟨1, _⟩ => rfl)

/-- The centre's norm, broadcast twice and summed over k, is read at (o, k). -/
theorem centre_index (b : Fin 8) (s : Fin 4096) (o : Fin 512) (k : Fin 64) :
    idx_main_v6 (idx_main_v13 (idx_main_v14 (ix3 b s o))) k = ix2 o k :=
  funext fun a => Fin.ext (by match a with | ⟨0, _⟩ => rfl | ⟨1, _⟩ => rfl)

/-- The inverse squared width, broadcast twice, is read at o. -/
theorem width_index (b : Fin 8) (s : Fin 4096) (o : Fin 512) :
    idx_main_v18 (idx_main_v19 (ix3 b s o)) = ix1 o :=
  funext fun a => Fin.ext (by match a with | ⟨0, _⟩ => rfl)

/-- The reference's last stage, at the ideal instance, is the layer of its three arguments. -/
theorem value_eq (x : Pts.Idx → EReal) (mu : Ctr.Idx → EReal) (ls : Wid.Idx → EReal) :
    val_main_v21 (F := Ideal) x mu ls = layer x mu ls := by
  funext i
  obtain ⟨b, s, o, rfl⟩ : ∃ (b : Fin 8) (s : Fin 4096) (o : Fin 512), i = ix3 b s o := ⟨i 0, i 1, i 2, eq_ix3 i⟩
  show _ = response x mu ls b s o
  rw [val_main_v21_apply, val_main_v20_apply, val_main_v17_apply, val_main_v16_apply, val_main_cst_3_apply,
    val_main_v15_apply, val_main_v12_apply, val_main_v11_apply, val_main_v8_apply, val_main_v4_apply, val_main_cst_0_apply,
    val_main_v10_apply, val_main_v9_apply, val_main_cst_2_apply, val_main_v7_apply,
    val_main_v14_apply, val_main_v13_apply, val_main_v6_apply, val_main_cst_1_apply,
    val_main_v19_apply, val_main_v18_apply, val_main_v2_apply, val_main_v1_apply, val_main_v0_apply, val_main_cst_apply]
  simp only [val_main_v3_apply, val_main_v5_apply, norm_index, inner_left_index, inner_right_index, centre_index, width_index,
    Ideal.mulf_def, Ideal.subf_def, Ideal.addf_def, Ideal.hostUnary_exp_def, Ideal.ofBits_def, Ideal.ofBits_zero_f32, zero_add,
    response, normSq, inner, centreSq]

end Cert.Rbf.Reference

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Tile.lean ====
/-
  What one tile of the kernel computes, entry by entry.

  A tile is 1024 consecutive flat rows of the points, xt : [1024, 64], against all 512 centres mu : [512, 64], with
  the centres' squared norms c2 : [1, 512] and the log-widths lw : [1, 512] as rows. The body forms the rows' squared
  norms by a lane sum kept as a column [1024, 1], the inner products by one matrix product of the tile with the
  centres contracted on the coordinate axis of both (the narrowing of the operands to bf16 is the identity on
  extended reals, and the accumulator is the zero array), and combines them pointwise after broadcasting the column
  across the 512 centres and the two rows down the 1024 rows. At entry (p, q) this is

      exp( (−1/2 · ((Σ_k xt[p,k]² − 2 · Σ_k xt[p,k]·mu[q,k]) + c2[0,q])) · exp(−2 · lw[0,q]) ).
-/
import proofs.«112076_j61186104099013_1_alg».proof.Proof.Gen.KernelIdeal.Skeleton
import proofs.«112076_j61186104099013_1_alg».proof.Proof.LibTransposedRhsDot
import proofs.«112076_j61186104099013_1_alg».proof.Proof.LibKeepdims
import Idealize.ShloMosaic.Lib.Pipeline.Value
import Idealize.ShloMosaic.Lib.ValueLayout
import Idealize.ShloMosaic.PureOps.Ideal.Laws

noncomputable section

namespace Cert.Rbf.Tile

open Cert.KernelIdeal Cert.KernelIdeal.Gen
open Idealize.ShloMosaic Idealize.ShloMosaic.ValueIdx

/-- The exponential of a vector, read at an index. -/
theorem exp_apply {s : Shape} {φ : FTy} (v : FVec Ideal s φ) (i : s.Idx) : exp v i = Ideal.exp (v i) := rfl

/-- The rows' squared norms, summed along the lanes, kept as a column and broadcast across the centres: at (p, q)
    the sum over the 64 coordinates of row p's squares, whatever q. -/
theorem normColumn_apply (v : FVec Ideal S1024x64 .f32) (h : S1024x64.Reduces [1] S1024) (h2 : S1024.ShapeCasts S1024x1)
    (h3 : S1024x1.Broadcasts S1024x512) (p : Fin 1024) (q : Fin 512) :
    broadcastTo S1024x512 (shapeCast S1024x1 (multiReduction .add [1] S1024 (mulf v v) 0x00000000#32 h (.inl rfl) rfl) h2) h3 (ix2 p q)
      = ∑ k : Fin 64, v (ix2 p k) * v (ix2 p k) := by
  refine (Cert.Keepdims.broadcastTo_a1_ab_apply _ h3 p q).trans ?_
  refine (Cert.Keepdims.shapeCast_a_a1_apply _ h2 p (0 : Fin 1)).trans ?_
  refine (Ideal.multiReduction_add_single (mulf v v) 0x00000000#32 h (.inl rfl) rfl (ix1 p)).trans ?_
  refine Finset.sum_congr rfl fun k _ => ?_
  have e : h.lift (ix1 p) k = ix2 p k :=
    funext fun a => Fin.ext (by match a with | ⟨0, _⟩ => rfl | ⟨1, _⟩ => rfl)
  rw [e]
  rfl

/-- The tile times the centres, both narrowed to bf16 and contracted on their coordinate axis, into the zero
    accumulator: at (p, q) the inner product of row p with centre q. -/
theorem innerProducts_apply (v : FVec Ideal S1024x64 .f32) (w : FVec Ideal S512x64 .f32) (hb : FTy.bits .bf16 < FTy.bits .f32)
    (p : Fin 1024) (q : Fin 512) :
    matmul dot_S1024x64_S512x64_S1024x512_1_1_0_0_n_n none (truncf .bf16 v hb) (truncf .bf16 w hb)
        (constant (F := Ideal) S1024x512 .f32 0x00000000#32) (ix2 p q)
      = ∑ k : Fin 64, v (ix2 p k) * w (ix2 q k) :=
  Idealize.ShloMosaic.TransposedRhsDot.matmul_zero_apply (M := 1024) (K := 64) (N := 512)
    dot_S1024x64_S512x64_S1024x512_1_1_0_0_n_n rfl none (truncf .bf16 v hb) (truncf .bf16 w hb) (ix2 p q)

/-- THE TILE, at entry (p, q). -/
theorem tile_apply (xt : FVec Ideal S1024x64 .f32) (mu : FVec Ideal S512x64 .f32) (c2 lw : FVec Ideal S1x512 .f32)
    (p : Fin 1024) (q : Fin 512) :
    k0_pay1 (F := Ideal) xt mu c2 lw (ix2 p q)
      = Ideal.exp (Ideal.ofBits .f32 0xBF000000#32
            * ((∑ k : Fin 64, xt (ix2 p k) * xt (ix2 p k)) - Ideal.ofBits .f32 0x40000000#32 * (∑ k : Fin 64, xt (ix2 p k) * mu (ix2 q k))
                + c2 (ix2 (0 : Fin 1) q))
          * Ideal.exp (Ideal.ofBits .f32 0xC0000000#32 * lw (ix2 (0 : Fin 1) q))) := by
  unfold k0_pay1
  dsimp only
  simp only [shapeCast_self]
  rw [exp_apply, mulf_apply, mulf_apply, broadcast_apply, addf_apply, subf_apply, mulf_apply, broadcast_apply,
    normColumn_apply, innerProducts_apply, broadcastTo_1b_ab_apply, broadcastTo_1b_ab_apply, exp_apply, mulf_apply, broadcast_apply]
  rfl

end Cert.Rbf.Tile

end
-- ==== Proof.KernelValue.lean ====
/-
  The kernel's result is the layer.

  The kernel flattens the points to rows r = b · 4096 + s, forms the centres' squared norms on the host, and walks the
  32768 rows in 32 tiles of 1024: tile t reads rows [1024·t, 1024·t + 1024) of the flat points together with ALL the
  centres, their norms and the log-widths (the same blocks at every tile), and writes rows [1024·t, 1024·t + 1024) of a
  flat result [32768, 512]; a final reshape splits the rows back into (b, s).

  So what tile t writes at its entry (p, q) is the response of centre q to the point of flat row 1024·t + p (the tile's
  arithmetic, read entry by entry, against the arrays the tile's blocks are cut from); the 32 tiles' row ranges cover
  every row exactly, so the flat result is the layer over flat rows; and row b · 4096 + s of it, which the reshape
  reads at (b, s, ·), is the layer at (b, s, ·).
-/
import proofs.«112076_j61186104099013_1_alg».proof.Proof.Gen.KernelIdeal.Frame
import proofs.«112076_j61186104099013_1_alg».proof.Proof.Tile
import proofs.«112076_j61186104099013_1_alg».proof.Proof.Spec
import Idealize.ShloMosaic.Lib.Pipeline.Value
import Idealize.ShloMosaic.Lib.ValueLayout
import Idealize.ShloMosaic.Lib.StableHlo.Run

set_option maxRecDepth 16384

noncomputable section

namespace Cert.Rbf.Kernel

open Cert.KernelIdeal Cert.KernelIdeal.Gen
open Idealize.ShloMosaic Idealize.ShloMosaic.TcCoe Idealize.SL.Sem Idealize.ShloMosaic.ValueIdx
open Idealize.ShloMosaic.Pipeline (Dat)

/-! ## Flat rows -/

/-- The points [8, 4096, 64] read as flat rows [32768, 64]: row r, coordinate k is the point at
    (r / 4096, r % 4096, k), the two arrangements having the same row-major position (r / 4096 · 4096 + r % 4096) · 64 + k. -/
theorem flatten_apply {α : Type} (X : Pts.Idx → α) (h : Pts.ShapeCasts ⟨2, ![32768, 64]⟩) (r : Fin 32768) (k : Fin 64) :
    shapeCast ⟨2, ![32768, 64]⟩ X h (ix2 r k) = X (ix3 (rowBatch r) (rowPos r) k) :=
  shapeCast_apply X h _ _ (by
    rw [Shape.rowMajor_val_three, Shape.rowMajor_val_two]
    show ((r.val / 4096) * 4096 + r.val % 4096) * 64 + k.val = r.val * 64 + k.val
    omega)

/-- A flat result [32768, 512] read as [8, 4096, 512]: at (b, s, o) it is row b · 4096 + s, column o. -/
theorem unflatten_apply {α : Type} (Y : OutFlat.Idx → α) (h : OutFlat.ShapeCasts Out) (b : Fin 8) (s : Fin 4096) (o : Fin 512)
    (hr : b.val * 4096 + s.val < 32768) :
    shapeCast Out Y h (ix3 b s o) = Y (ix2 ⟨b.val * 4096 + s.val, hr⟩ o) :=
  shapeCast_apply Y h _ _ (by
    rw [Shape.rowMajor_val_three, Shape.rowMajor_val_two]
    rfl)

/-! ## One tile against the layer -/

/-- The centres' squared norms as the host forms them — the sum, from 0, of each centre's squared coordinates, laid as
    a row [1, 512] — read at (0, q): centre q's squared norm. -/
theorem centreNorms_apply (mu : FVec Ideal S512x64 .f32) (q : Fin 512) :
    shapeCast S1x512 (Host.reduceAdd (F := Ideal) (mulf mu mu) (constant (F := Ideal) S_ .f32 0x00000000#32) reducesTo_S512x64_S512_d1 h_S_)
        shapeCasts_S512_S1x512 (ix2 (0 : Fin 1) q) = centreSq mu q := by
  refine (shapeCast_a_1a_apply _ shapeCasts_S512_S1x512 (0 : Fin 1) q).trans ?_
  simp only [Host.reduceAdd, Ideal.hostReduceAdd_def]
  rw [Ideal.hostReduceAdd_single reducesTo_S512x64_S512_d1 (by decide)]
  show Ideal.ofBits .f32 0x00000000#32 + _ = _
  rw [Ideal.ofBits_zero_f32, zero_add]
  refine Finset.sum_congr rfl fun k _ => ?_
  have e : (by decide : S512x64.Reduces [1] S512).lift (ix1 q) k = ix2 q k :=
    funext fun a => Fin.ext (by match a with | ⟨0, _⟩ => rfl | ⟨1, _⟩ => rfl)
  rw [e]
  rfl

/-- A tile's entry against the layer, over any arrays: if the tile's row y 0 holds the coordinates of the point of
    flat row r, its centres, norms and widths are the layer's, and its column is o, then the tile's value at y is the
    response of centre o to the point of row r. -/
theorem tile_is_response (x : Pts.Idx → EReal) (mu : Ctr.Idx → EReal) (ls : Wid.Idx → EReal)
    (xt : FVec Ideal S1024x64 .f32) (cen : FVec Ideal S512x64 .f32) (c2 lw : FVec Ideal S1x512 .f32)
    (y : S1024x512.Idx) (r : Fin 32768) (o : Fin 512)
    (hx : ∀ k : Fin 64, xt (ix2 (y 0) k) = x (ix3 (rowBatch r) (rowPos r) k))
    (hmu : ∀ (q : Fin 512) (k : Fin 64), cen (ix2 q k) = mu (ix2 q k))
    (hc2 : ∀ q : Fin 512, c2 (ix2 (0 : Fin 1) q) = centreSq mu q)
    (hlw : ∀ q : Fin 512, lw (ix2 (0 : Fin 1) q) = ls (ix1 q))
    (hcol : y 1 = o) :
    k0_pay1 (F := Ideal) xt cen c2 lw y = response x mu ls (rowBatch r) (rowPos r) o := by
  refine ((congrArg (k0_pay1 (F := Ideal) xt cen c2 lw) (eq_ix2 y)).trans (Tile.tile_apply xt cen c2 lw (y 0) (y 1))).trans ?_
  unfold response normSq inner
  simp only [hx, hmu, hc2, hlw, hcol]

variable (m : (ℓ : Loc nD τ sig) → Buf (Elt Ideal) ℓ) (ρ : Dev nD → PrngReg)

/-- The three argument arrays on a core: the points, the centres, the log-widths. -/
abbrev xArg (c : Dev nD) : Pts.Idx → EReal := m ((c : Thread nD τ).loc main_arg0)
abbrev muArg (c : Dev nD) : Ctr.Idx → EReal := m ((c : Thread nD τ).loc main_arg1)
abbrev lsArg (c : Dev nD) : Wid.Idx → EReal := m ((c : Thread nD τ).loc main_arg2)

/-! ## The arrays the tiles are cut from -/

/-- The first window's array is the points, flattened to rows. -/
theorem flatPoints_eq (c : Dev nD) :
    (V m c main_v0 : S32768x64.Idx → EReal) = shapeCast S32768x64 (xArg m c) shapeCasts_S8x4096x64_S32768x64 := by
  show StableHlo.after hostOps0 (fun b => m (c, b)) (Proc.devRef .tc main_v0) = _
  after_results
  rfl

/-- The third window's array is the row of the centres' squared norms, each a sum from 0 over the coordinates. -/
theorem centreNorms_eq (c : Dev nD) :
    (V m c main_v3 : S1x512.Idx → EReal) = shapeCast S1x512 (Host.reduceAdd (F := Ideal) (mulf (muArg m c) (muArg m c)) (constant (F := Ideal) S_ .f32 0x00000000#32) reducesTo_S512x64_S512_d1 h_S_) shapeCasts_S512_S1x512 := by
  show StableHlo.after hostOps0 (fun b => m (c, b)) (Proc.devRef .tc main_v3) = _
  after_results
  rfl

/-- The fourth window's array is the log-widths as a row. -/
theorem widths_eq (c : Dev nD) :
    (V m c main_v4 : S1x512.Idx → EReal) = shapeCast S1x512 (lsArg m c) shapeCasts_S512_S1x512 := by
  show StableHlo.after hostOps0 (fun b => m (c, b)) (Proc.devRef .tc main_v4) = _
  after_results
  rfl

/-- The body's loads and its store start at the origin of their buffers. -/
theorem hz : (![0, 0] : Fin 2 → Nat) = fun _ => 0 := funext fun a => by fin_cases a <;> rfl

/-! ## Tile t -/

/-- The block indices over the 32 tiles: the points' block and the result's block are tile t's on the row axis (block
    t of 1024 rows); the centres, their norms and the log-widths are one block, the same at every tile. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT TILE t WRITES BACK is block t of the layer over flat rows: entry (p, q) of the tile sits at row 1024·t + p of
    both the flat points and the flat result, and the other three blocks are whole arrays. -/
theorem flushed_eq (c : Dev nD) (t : Fin cfg0.N) :
    (dats m 0 c).flushed 4 t = ((cfg0.win 4).blk t).view.read (Elt Ideal) (layerFlat (xArg m c) (muArg m c) (lsArg m c)) := by
  show (cfg0.win 4).cut (grid0.coords t) ((dats m 0 c).after 4 t) = _
  rw [after0_4]
  unfold out0_4
  rw [View.canon_unit_zero hz]
  simp only [View.ld_unit_zero (S := S1024x64) hz, View.ld_unit_zero (S := S512x64) hz, View.ld_unit_zero (S := S1x512) hz]
  obtain ⟨e00, e01, e10, e11, e20, e21, e30, e31, e40, e41⟩ := tile_index t
  funext j
  show k0_pay1 (F := Ideal) (iblk m c 0 t) (iblk m c 1 t) (iblk m c 2 t) (iblk m c 3 t) j
    = response (xArg m c) (muArg m c) (lsArg m c) (rowBatch (((cfg0.win 4).blk t).view.emb j 0)) (rowPos (((cfg0.win 4).blk t).view.emb j 0)) (((cfg0.win 4).blk t).view.emb j 1)
  refine tile_is_response (xArg m c) (muArg m c) (lsArg m c) (iblk m c 0 t) (iblk m c 1 t) (iblk m c 2 t) (iblk m c 3 t) j
    (((cfg0.win 4).blk t).view.emb j 0) (((cfg0.win 4).blk t).view.emb j 1) ?_ ?_ ?_ ?_ ?_
  · intro k
    have h0 : ((cfg0.win 0).blk t).view.emb (ix2 (j 0) k) = ix2 (((cfg0.win 4).blk t).view.emb j 0) k := by
      funext a; apply Fin.ext
      match a with
      | ⟨0, _⟩ => show win0_0.index t (0 : Fin 2) * 1024 + 1 * (j 0).val = win0_4.index t (0 : Fin 2) * 1024 + 1 * (j 0).val; omega
      | ⟨1, _⟩ => show win0_0.index t (1 : Fin 2) * 64 + 1 * k.val = k.val; omega
    show V m c main_v0 (((cfg0.win 0).blk t).view.emb (ix2 (j 0) k)) = _
    rw [h0, flatPoints_eq]
    exact flatten_apply _ _ _ _
  · intro q k
    have h1 : ((cfg0.win 1).blk t).view.emb (ix2 q k) = ix2 q k := by
      funext a; apply Fin.ext
      match a with
      | ⟨0, _⟩ => show win0_1.index t (0 : Fin 2) * 512 + 1 * q.val = q.val; omega
      | ⟨1, _⟩ => show win0_1.index t (1 : Fin 2) * 64 + 1 * k.val = k.val; omega
    show V m c main_arg1 (((cfg0.win 1).blk t).view.emb (ix2 q k)) = _
    rw [h1, V_main_arg1]
  · intro q
    have h2 : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 512 + 1 * q.val = q.val; omega
    show V m c main_v3 (((cfg0.win 2).blk t).view.emb (ix2 (0 : Fin 1) q)) = _
    rw [h2, centreNorms_eq]
    exact centreNorms_apply _ q
  · intro q
    have h3 : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 512 + 1 * q.val = q.val; omega
    show V m c main_v4 (((cfg0.win 3).blk t).view.emb (ix2 (0 : Fin 1) q)) = _
    rw [h3, widths_eq]
    exact shapeCast_a_1a_apply _ shapeCasts_S512_S1x512 (0 : Fin 1) q
  · apply Fin.ext
    show (j 1).val = win0_4.index t (1 : Fin 2) * 512 + 1 * (j 1).val
    omega

/-! ## The 32 tiles cover the flat result -/

/-- An index of the flat result is in tile t's block iff each coordinate is in the block's range on its axis. -/
theorem mem_tile (t : Fin cfg0.N) (i : S32768x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5).slice (win0_4.rect t)).set ↔ _
  rw [View.set_slice_whole, Rect.mem_set_unit]
  exact Iff.rfl

/-- Row r lies in tile r / 1024: every index of the flat result is written by some tile. -/
theorem tiles_cover (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : grid0.N = 32 := N_0
  have ht : (i 0).val / 1024 < cfg0.N := by show (i 0).val / 1024 < grid0.N; rw [hN]; omega
  obtain ⟨-, -, -, -, -, -, -, -, e40, e41⟩ := tile_index ⟨(i 0).val / 1024, ht⟩
  refine ⟨⟨(i 0).val / 1024, ht⟩, flush0_4 _, ?_⟩
  rw [mem_tile]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e40]; show (i 0).val / 1024 * 1024 ≤ (i 0).val ∧ (i 0).val < (i 0).val / 1024 * 1024 + 1024; omega
  | ⟨1, _⟩ =>
    show win0_4.index ⟨(i 0).val / 1024, ht⟩ (1 : Fin 2) * 512 ≤ (i 1).val ∧ (i 1).val < win0_4.index ⟨(i 0).val / 1024, ht⟩ (1 : Fin 2) * 512 + 512
    rw [e41]; omega

/-- So after the 32 tiles the flat result is the layer over flat rows. -/
theorem flatResult_eq (c : Dev nD) :
    (dats m 0 c).arrAt 4 cfg0.N = layerFlat (xArg m c) (muArg m c) (lsArg m c) :=
  (dats m 0 c).arrAt_eq_of_cover 4 _ (fun t _ => flushed_eq m c t) tiles_cover

/-! ## The reshape after the tiles, and the run -/

/-- The program's result, the flat result split back into (b, s): the layer of the three arguments. -/
theorem result_eq (c : Dev nD) :
    Pipeline.afterTail₀ cfgs (dats m) 0 (V0 m) [hostOps1] c main_v6 = layer (xArg m c) (muArg m c) (lsArg m c) := by
  unfold Pipeline.afterTail₀
  show StableHlo.after hostOps1 _ (Proc.devRef .tc main_v6) = _
  after_results
  funext i
  obtain ⟨b, s, o, rfl⟩ : ∃ (b : Fin 8) (s : Fin 4096) (o : Fin 512), i = ix3 b s o := ⟨i 0, i 1, i 2, eq_ix3 i⟩
  have hr : b.val * 4096 + s.val < 32768 := by have := b.isLt; have := s.isLt; omega
  show shapeCast S8x4096x512 (Pipeline.withArrays spec0 c (V0 m c) (fun w => (dats m 0 c).arrAt w cfg0.N) (Proc.devRef .tc main_v5))
      shapeCasts_S32768x512_S8x4096x512 (ix3 b s o) = response (xArg m c) (muArg m c) (lsArg m c) b s o
  refine (unflatten_apply _ shapeCasts_S32768x512_S8x4096x512 b s o hr).trans ?_
  have e5 : Pipeline.withArrays spec0 c (V0 m c) (fun w => (dats m 0 c).arrAt w cfg0.N) (Proc.devRef .tc main_v5)
      = (dats m 0 c).arrAt 4 cfg0.N := Pipeline.withArrays_arr spec0 launch0.win.arr_inj c _ _ 4
  rw [e5, flatResult_eq]
  show response (xArg m c) (muArg m c) (lsArg m c) (rowBatch ⟨b.val * 4096 + s.val, hr⟩) (rowPos ⟨b.val * 4096 + s.val, hr⟩) o = _
  rw [rowBatch_mk, rowPos_mk]

/-- Every weakly fair execution of the kernel's program terminates with its result at the layer of its arguments and
    the arguments unchanged: the generated frame run, its post read through the equations above. -/
theorem run : θ_run defs (onTc (τ := τ) (main (F := Ideal))) ⟨m, fun _ => 0, ρ⟩ fun r => ∀ c : Dev nD,
      r.2.mem ((c.tc : Thread nD τ).loc main_v6) = layer (xArg m c) (muArg m c) (lsArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v6 (Pipeline.mem_restRefs_of main_v6 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.Rbf.Kernel

end
-- ==== Proof.lean ====
/-
  A Gaussian radial-basis layer: a tiled kernel against its whole-array reference, over the extended reals.

  Both programs compute, for points x[b, s, :], centres mu[o, :] and log-widths ls[o],

      exp( (−1/2 · ((|x_bs|² − 2·⟨x_bs, mu_o⟩) + |mu_o|²)) · exp(−2 · ls_o) )

  with the same three scalar words and the same order of the pointwise operations; they differ only in how the
  three sums over the 64 coordinates are formed (a lane sum, a host sum from 0, a matrix product into a zero
  accumulator with operands narrowed to bf16, a host contraction) and in the arrangement (the kernel works on flat
  rows in 32 tiles of 1024). Over the extended reals each of those is the plain sum of the products, narrowing is
  the identity, and 0 + a = a, so both results are the function `Cert.Rbf.layer` of the arguments (Proof/Spec.lean):
  the reference's by reading its operations at an index (Proof/RefValue.lean), the kernel's by reading one tile's
  arithmetic at an entry (Proof/Tile.lean) and assembling the tiles (Proof/KernelValue.lean). No algebraic law
  beyond 0 + a = a is used, so the inputs' finiteness is never opened.
-/
import proofs.«112076_j61186104099013_1_alg».proof.Defs
import proofs.«112076_j61186104099013_1_alg».proof.Proof.Gen.Kernel
import proofs.«112076_j61186104099013_1_alg».proof.Proof.Gen.Kernel.Skeleton
import proofs.«112076_j61186104099013_1_alg».proof.Proof.Gen.Kernel.Launch
import proofs.«112076_j61186104099013_1_alg».proof.Proof.Gen.Kernel.Points
import proofs.«112076_j61186104099013_1_alg».proof.Proof.Gen.Kernel.Frame
import proofs.«112076_j61186104099013_1_alg».proof.Proof.Gen.KernelIdeal
import proofs.«112076_j61186104099013_1_alg».proof.Proof.Gen.KernelIdeal.Skeleton
import proofs.«112076_j61186104099013_1_alg».proof.Proof.Gen.KernelIdeal.Launch
import proofs.«112076_j61186104099013_1_alg».proof.Proof.Gen.KernelIdeal.Points
import proofs.«112076_j61186104099013_1_alg».proof.Proof.Gen.KernelIdeal.Frame
import proofs.«112076_j61186104099013_1_alg».proof.Proof.Gen.ReferenceIdeal
import proofs.«112076_j61186104099013_1_alg».proof.Proof.Gen.ReferenceIdeal.Run
import proofs.«112076_j61186104099013_1_alg».proof.Proof.Gen.ReferenceIdeal.Read
import proofs.«112076_j61186104099013_1_alg».proof.Proof.Gen.Pre_finite_inputs
import proofs.«112076_j61186104099013_1_alg».proof.Proof.Spec
import proofs.«112076_j61186104099013_1_alg».proof.Proof.RefValue
import proofs.«112076_j61186104099013_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the layer of those arguments as their
    result: the kernel by its tiles, the reference operation by operation. -/
theorem algebraic : Cert.algebraic_KernelIdeal_ReferenceIdeal := by
  intro m ρ m' ρ' _ hagree
  refine ⟨fun c => Cert.Rbf.layer (Cert.Rbf.Kernel.xArg m c) (Cert.Rbf.Kernel.muArg m c) (Cert.Rbf.Kernel.lsArg m c),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v21_eq _ _ _).trans (Cert.Rbf.Reference.value_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
